-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S2x4096x128 : Shape := ⟨3, ![2, 4096, 128]⟩
abbrev S4096x128 : Shape := ⟨2, ![4096, 128]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2x4096x128 : S_.BroadcastsInDim S2x4096x128 (![] : Fin 0 → Fin S2x4096x128.rank)
  reducesTo_S2x4096x128_S_d0_1_2 : S2x4096x128.ReducesTo [0, 1, 2] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x128 .f32) (main_v13 : IVec S_ 1) (main_v16 : IVec S2x4096x128 1) : IVec S_ 1 :=
  let main_c_5 : IVec S_ 1 := constantI S_ 1 1#1
  let main_v17 : IVec S_ 1 := (fun x v => Host.reduce IntOp.andi x v reducesTo_S2x4096x128_S_d0_1_2 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S4096 .f32) (main_arg3 : FVec F S2x4096x128 .f32) (main_arg4 : FVec F S4096x128 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2x4096x128 .f32 := Host.absf main_arg3
  let main_cst_4 : FVec F S_ .f32 := constant S_ .f32 0x7F800000#32
  let main_v15 : FVec F S2x4096x128 .f32 := broadcastInDim S2x4096x128 ![] bcast_S_S2x4096x128 main_cst_4
  let main_v16 : IVec S2x4096x128 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S4096 : Shape := ⟨1, ![4096]⟩
abbrev S2x4096x128 : Shape := ⟨3, ![2, 4096, 128]⟩
abbrev S4096x128 : Shape := ⟨2, ![4096, 128]⟩
abbrev S1x4096 : Shape := ⟨2, ![1, 4096]⟩
abbrev S1x256x4096 : Shape := ⟨3, ![1, 256, 4096]⟩
abbrev S512x4096 : Shape := ⟨2, ![512, 4096]⟩
abbrev S1x512 : Shape := ⟨2, ![1, 512]⟩
abbrev S1x256x128 : Shape := ⟨3, ![1, 256, 128]⟩
abbrev S512x128 : Shape := ⟨2, ![512, 128]⟩
abbrev S1x256x512 : Shape := ⟨3, ![1, 256, 512]⟩
abbrev S256x4096 : Shape := ⟨2, ![256, 4096]⟩
abbrev S256x128 : Shape := ⟨2, ![256, 128]⟩
abbrev S256x128x1 : Shape := ⟨3, ![256, 128, 1]⟩
abbrev S256x128x32 : Shape := ⟨3, ![256, 128, 32]⟩
abbrev S512x128x1 : Shape := ⟨3, ![512, 128, 1]⟩
abbrev S512x128x32 : Shape := ⟨3, ![512, 128, 32]⟩
abbrev S256x512 : Shape := ⟨2, ![256, 512]⟩

abbrev nBuf : Space → Nat
  | .hbm => 7
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S2x4096x128, .f32⟩
  | .hbm, ⟨4, _⟩ => ⟨S4096x128, .f32⟩
  | .hbm, ⟨5, _⟩ => ⟨S1x4096, .f32⟩
  | .hbm, ⟨6, _⟩ => ⟨S2x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1x256x128, .f32⟩
  | .local _ .vmem, ⟨7, _⟩ => ⟨S1x256x128, .f32⟩
  | .local _ .vmem, ⟨8, _⟩ => ⟨S512x128, .f32⟩
  | .local _ .vmem, ⟨9, _⟩ => ⟨S512x128, .f32⟩
  | .local _ .vmem, ⟨10, _⟩ => ⟨S1x256x512, .f32⟩
  | .local _ .vmem, ⟨11, _⟩ => ⟨S1x256x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S4096_S1x4096 : S4096.ShapeCasts S1x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S512x4096_S512x4096_0_0 : ∀ a, (![0, 0] : Fin 2 → Nat) a + S512x4096.size a ≤ S512x4096.size a
  h_S512x4096 : 0 < S512x4096.numel
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S512x128_S512x128_0_0 : ∀ a, (![0, 0] : Fin 2 → Nat) a + S512x128.size a ≤ S512x128.size a
  h_S512x128 : 0 < S512x128.numel
  shapeCasts_S256x128_S256x128x1 : S256x128.ShapeCasts S256x128x1
  shapeCasts_S256x128x1_S256x128x1 : S256x128x1.ShapeCasts S256x128x1
  broadcasts_S256x128x1_S256x128x32 : S256x128x1.Broadcasts S256x128x32
  shapeCasts_S256x128x32_S256x4096 : S256x128x32.ShapeCasts S256x4096
  shapeCasts_S512x128_S512x128x1 : S512x128.ShapeCasts S512x128x1
  shapeCasts_S512x128x1_S512x128x1 : S512x128x1.ShapeCasts S512x128x1
  broadcasts_S512x128x1_S512x128x32 : S512x128x1.Broadcasts S512x128x32
  shapeCasts_S512x128x32_S512x4096 : S512x128x32.ShapeCasts S512x4096
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S2x4096x4096.size a
  hwx0_0 : ∀ i : grid0.Coords, EltTy.bits .f32 = 32 ∨ (Rect.block (s := S2x4096x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S2x4096x128.size a
  hwx0_3 : ∀ i : grid0.Coords, EltTy.bits .f32 = 32 ∨ (Rect.block (s := S2x4096x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x512.size a ≤ S2x4096x4096.size a
  hwx0_5 : ∀ i : grid0.Coords, EltTy.bits .f32 = 32 ∨ (Rect.block (s := S2x4096x4096) S1x256x512.size (cc0_transform_5 i) (hinb0_5 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S2x4096x128 : Shape := ⟨3, ![2, 4096, 128]⟩
abbrev S4096x128 : Shape := ⟨2, ![4096, 128]⟩
abbrev S2x4096x128x32 : Shape := ⟨4, ![2, 4096, 128, 32]⟩
abbrev S2x4096x128x1 : Shape := ⟨4, ![2, 4096, 128, 1]⟩
abbrev S4096x128x32 : Shape := ⟨3, ![4096, 128, 32]⟩
abbrev S4096x128x1 : Shape := ⟨3, ![4096, 128, 1]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S2x4096x128, .f32⟩
  | .hbm, ⟨4, _⟩ => ⟨S4096x128, .f32⟩
  | .hbm, ⟨5, _⟩ => ⟨S2x4096x128x32, .f32⟩
  | .hbm, ⟨6, _⟩ => ⟨S2x4096x128x1, .f32⟩
  | .hbm, ⟨7, _⟩ => ⟨S2x4096x128x32, .f32⟩
  | .hbm, ⟨8, _⟩ => ⟨S2x4096x128x32, .f32⟩
  | .hbm, ⟨9, _⟩ => ⟨S2x4096x4096, .f32⟩
  | .hbm, ⟨10, _⟩ => ⟨S4096x128x32, .f32⟩
  | .hbm, ⟨11, _⟩ => ⟨S4096x128x1, .f32⟩
  | .hbm, ⟨12, _⟩ => ⟨S4096x128x32, .f32⟩
  | .hbm, ⟨13, _⟩ => ⟨S4096x128x32, .f32⟩
  | .hbm, ⟨14, _⟩ => ⟨S4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S2x4096x4096_S2x4096x128x32 : S2x4096x4096.ShapeCasts S2x4096x128x32
  bcast_S2x4096x128_S2x4096x128x1_0_1_2 : S2x4096x128.BroadcastsInDim S2x4096x128x1 (![0, 1, 2] : Fin 3 → Fin S2x4096x128x1.rank)
  bcast_S2x4096x128x1_S2x4096x128x32_0_1_2_3 : S2x4096x128x1.BroadcastsInDim S2x4096x128x32 (![0, 1, 2, 3] : Fin 4 → Fin S2x4096x128x32.rank)
  shapeCasts_S2x4096x128x32_S2x4096x4096 : S2x4096x128x32.ShapeCasts S2x4096x4096
  shapeCasts_S4096x4096_S4096x128x32 : S4096x4096.ShapeCasts S4096x128x32
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.Spec.lean ====
/-
  The function both programs compute, as one formula over the five argument arrays.

  A block-scaled linear layer. Along the contracted axis (length 4096) every run of 32 consecutive columns shares one
  scale: column `c` lies in scale block `c / 32` (128 blocks). An activation entry is rescaled by its row's scale for
  that block, a weight entry by its output channel's scale for that block, and

      out[b, r, k] = (∑ c, (x[b, r, c] · xs[b, r, c / 32]) · (w[k, c] · ws[k, c / 32])) + bias[k].

  Nothing here mentions either program: the module fixes the formula, index by index, over the literal shapes.
-/
import Idealize.ShloMosaic.PureOps.Ideal
import Idealize.ShloMosaic.Lib.ValueIdx

noncomputable section

namespace Cert.ScaledGemm

open Idealize.ShloMosaic Idealize.ShloMosaic.ValueIdx

/-- The scale block of a column of the contracted axis: 32 consecutive columns share one scale. -/
abbrev scaleBlock (c : Fin 4096) : Fin 128 := ⟨c.val / 32, by have := c.isLt; omega⟩

/-- A column's position inside its scale block. -/
abbrev laneOf (c : Fin 4096) : Fin 32 := ⟨c.val % 32, Nat.mod_lt _ (by decide)⟩

theorem scaleBlock_val (c : Fin 4096) : (scaleBlock c).val = c.val / 32 := rfl
theorem laneOf_val (c : Fin 4096) : (laneOf c).val = c.val % 32 := rfl

/-- One term of the contraction: the rescaled activation entry times the rescaled weight entry at column `c`. -/
def term (x : (⟨3, ![2, 4096, 4096]⟩ : Shape).Idx → EReal) (w : (⟨2, ![4096, 4096]⟩ : Shape).Idx → EReal)
    (xs : (⟨3, ![2, 4096, 128]⟩ : Shape).Idx → EReal) (ws : (⟨2, ![4096, 128]⟩ : Shape).Idx → EReal)
    (b : Fin 2) (r : Fin 4096) (k : Fin 4096) (c : Fin 4096) : EReal :=
  (x (ix3 b r c) * xs (ix3 b r (scaleBlock c))) * (w (ix2 k c) * ws (ix2 k (scaleBlock c)))

/-- The result at batch `b`, row `r`, output channel `k`: the contraction over all 4096 columns, plus the channel's bias. -/
def entry (x : (⟨3, ![2, 4096, 4096]⟩ : Shape).Idx → EReal) (w : (⟨2, ![4096, 4096]⟩ : Shape).Idx → EReal)
    (bias : (⟨1, ![4096]⟩ : Shape).Idx → EReal)
    (xs : (⟨3, ![2, 4096, 128]⟩ : Shape).Idx → EReal) (ws : (⟨2, ![4096, 128]⟩ : Shape).Idx → EReal)
    (b : Fin 2) (r : Fin 4096) (k : Fin 4096) : EReal :=
  (∑ c : Fin 4096, term x w xs ws b r k c) + bias (ix1 k)

/-- The whole result array as one function of the five argument arrays. -/
def G (x : (⟨3, ![2, 4096, 4096]⟩ : Shape).Idx → EReal) (w : (⟨2, ![4096, 4096]⟩ : Shape).Idx → EReal)
    (bias : (⟨1, ![4096]⟩ : Shape).Idx → EReal)
    (xs : (⟨3, ![2, 4096, 128]⟩ : Shape).Idx → EReal) (ws : (⟨2, ![4096, 128]⟩ : Shape).Idx → EReal) :
    (⟨3, ![2, 4096, 4096]⟩ : Shape).Idx → EReal :=
  fun i => entry x w bias xs ws (i 0) (i 1) (i 2)

theorem G_apply (x : (⟨3, ![2, 4096, 4096]⟩ : Shape).Idx → EReal) (w : (⟨2, ![4096, 4096]⟩ : Shape).Idx → EReal)
    (bias : (⟨1, ![4096]⟩ : Shape).Idx → EReal)
    (xs : (⟨3, ![2, 4096, 128]⟩ : Shape).Idx → EReal) (ws : (⟨2, ![4096, 128]⟩ : Shape).Idx → EReal)
    (b : Fin 2) (r : Fin 4096) (k : Fin 4096) :
    G x w bias xs ws (ix3 b r k) = entry x w bias xs ws b r k := rfl

end Cert.ScaledGemm

end
-- ==== Proof.RefIsSpec.lean ====
/-
  The reference computes `G`.

  The reference reshapes each operand so that a scale block becomes an axis of its own ([.., 4096] to [.., 128, 32]),
  multiplies by the scale broadcast along the lane axis, flattens back, contracts the column axis of the rescaled
  activations with the column axis of the rescaled weights, and adds the bias broadcast over batch and row. A reshape
  keeps row-major position, so after the round trip column `c` meets block `c / 32` of the scale table and the element
  read is exactly the factor of `G`'s term; the contraction is the sum over the 4096 columns.
  Each composed index map of the reference's stages is identified with the plain coordinates once (the five index lemmas),
  then the stages are read one by one.
-/
import proofs.«176947_j57784490000873_1_alg».proof.Proof.Gen.ReferenceIdeal.Read
import proofs.«176947_j57784490000873_1_alg».proof.Proof.Spec

noncomputable section

namespace Cert.ScaledGemm.Ref

open Cert.ReferenceIdeal Cert.ReferenceIdeal.Read Idealize.ShloMosaic Idealize.ShloMosaic.ValueIdx Cert.ScaledGemm

/-- Reshape to blocks and back: the activation entry read for column `k` is the one at (batch, row, k). -/
theorem act_idx (i : S2x4096x4096.Idx) (k : Fin 4096) :
    idx_main_v0 (idx_main_v4 (lidx_main_v10 i k)) = ix3 (i 0) (i 1) k := by
  have h0 : (i 0).val < 2 := (i 0).isLt
  have h1 : (i 1).val < 4096 := (i 1).isLt
  have h2 : (i 2).val < 4096 := (i 2).isLt
  have hk : k.val < 4096 := k.isLt
  funext a; apply Fin.ext
  match a with
  | ⟨0, _⟩ => show (((((((i 0).val * 4096 + (i 1).val) * 4096 + k.val) / 16777216) * 4096 + (((i 0).val * 4096 + (i 1).val) * 4096 + k.val) / 4096 % 4096) * 128 + (((i 0).val * 4096 + (i 1).val) * 4096 + k.val) / 32 % 128) * 32 + (((i 0).val * 4096 + (i 1).val) * 4096 + k.val) % 32) / 16777216 = (i 0).val; omega
  | ⟨1, _⟩ => show (((((((i 0).val * 4096 + (i 1).val) * 4096 + k.val) / 16777216) * 4096 + (((i 0).val * 4096 + (i 1).val) * 4096 + k.val) / 4096 % 4096) * 128 + (((i 0).val * 4096 + (i 1).val) * 4096 + k.val) / 32 % 128) * 32 + (((i 0).val * 4096 + (i 1).val) * 4096 + k.val) % 32) / 4096 % 4096 = (i 1).val; omega
  | ⟨2, _⟩ => show (((((((i 0).val * 4096 + (i 1).val) * 4096 + k.val) / 16777216) * 4096 + (((i 0).val * 4096 + (i 1).val) * 4096 + k.val) / 4096 % 4096) * 128 + (((i 0).val * 4096 + (i 1).val) * 4096 + k.val) / 32 % 128) * 32 + (((i 0).val * 4096 + (i 1).val) * 4096 + k.val) % 32) % 4096 = k.val; omega

/-- The activation scale read for column `k` is the one of (batch, row) for the block of `k`. -/
theorem actScale_idx (i : S2x4096x4096.Idx) (k : Fin 4096) :
    idx_main_v1 (idx_main_v2 (idx_main_v4 (lidx_main_v10 i k))) = ix3 (i 0) (i 1) (scaleBlock k) := by
  have h0 : (i 0).val < 2 := (i 0).isLt
  have h1 : (i 1).val < 4096 := (i 1).isLt
  have h2 : (i 2).val < 4096 := (i 2).isLt
  have hk : k.val < 4096 := k.isLt
  funext a; apply Fin.ext
  match a with
  | ⟨0, _⟩ => show (((i 0).val * 4096 + (i 1).val) * 4096 + k.val) / 16777216 = (i 0).val; omega
  | ⟨1, _⟩ => show (((i 0).val * 4096 + (i 1).val) * 4096 + k.val) / 4096 % 4096 = (i 1).val; omega
  | ⟨2, _⟩ => show (((i 0).val * 4096 + (i 1).val) * 4096 + k.val) / 32 % 128 = k.val / 32; omega

/-- The weight entry read for column `k` is the one at (output channel, k). -/
theorem wt_idx (i : S2x4096x4096.Idx) (k : Fin 4096) :
    idx_main_v5 (idx_main_v9 (ridx_main_v10 i k)) = ix2 (i 2) k := by
  have h0 : (i 0).val < 2 := (i 0).isLt
  have h1 : (i 1).val < 4096 := (i 1).isLt
  have h2 : (i 2).val < 4096 := (i 2).isLt
  have hk : k.val < 4096 := k.isLt
  funext a; apply Fin.ext
  match a with
  | ⟨0, _⟩ => show (((((i 2).val * 4096 + k.val) / 4096) * 128 + ((i 2).val * 4096 + k.val) / 32 % 128) * 32 + ((i 2).val * 4096 + k.val) % 32) / 4096 = (i 2).val; omega
  | ⟨1, _⟩ => show (((((i 2).val * 4096 + k.val) / 4096) * 128 + ((i 2).val * 4096 + k.val) / 32 % 128) * 32 + ((i 2).val * 4096 + k.val) % 32) % 4096 = k.val; omega

/-- The weight scale read for column `k` is the one of the output channel for the block of `k`. -/
theorem wtScale_idx (i : S2x4096x4096.Idx) (k : Fin 4096) :
    idx_main_v6 (idx_main_v7 (idx_main_v9 (ridx_main_v10 i k))) = ix2 (i 2) (scaleBlock k) := by
  have h0 : (i 0).val < 2 := (i 0).isLt
  have h1 : (i 1).val < 4096 := (i 1).isLt
  have h2 : (i 2).val < 4096 := (i 2).isLt
  have hk : k.val < 4096 := k.isLt
  funext a; apply Fin.ext
  match a with
  | ⟨0, _⟩ => show ((i 2).val * 4096 + k.val) / 4096 = (i 2).val; omega
  | ⟨1, _⟩ => show ((i 2).val * 4096 + k.val) / 32 % 128 = k.val / 32; omega

/-- The bias broadcast over batch and row reads the output channel's entry. -/
theorem bias_idx (i : S2x4096x4096.Idx) : idx_main_v11 (idx_main_v12 i) = ix1 (i 2) := by
  funext a; apply Fin.ext
  match a with
  | ⟨0, _⟩ => rfl

/-- One product of the reference's contraction is `G`'s term. -/
theorem factor_eq (x0 : (⟨S2x4096x4096, .f32⟩ : BufTy).Contents (Elt Ideal)) (x1 : (⟨S4096x4096, .f32⟩ : BufTy).Contents (Elt Ideal))
    (x3 : (⟨S2x4096x128, .f32⟩ : BufTy).Contents (Elt Ideal)) (x4 : (⟨S4096x128, .f32⟩ : BufTy).Contents (Elt Ideal))
    (i : S2x4096x4096.Idx) (k : Fin 4096) :
    (val_main_v4 (F := Ideal) x0 x3) (lidx_main_v10 i k) * (val_main_v9 (F := Ideal) x1 x4) (ridx_main_v10 i k)
      = term x0 x1 x3 x4 (i 0) (i 1) (i 2) k := by
  rw [val_main_v4_apply, val_main_v3_apply, val_main_v0_apply, val_main_v2_apply, val_main_v1_apply,
    val_main_v9_apply, val_main_v8_apply, val_main_v5_apply, val_main_v7_apply, val_main_v6_apply,
    act_idx, actScale_idx, wt_idx, wtScale_idx]
  rfl

/-- The reference's last stage is `G` of the five arguments. -/
theorem stage_eq_G (x0 : (⟨S2x4096x4096, .f32⟩ : BufTy).Contents (Elt Ideal)) (x1 : (⟨S4096x4096, .f32⟩ : BufTy).Contents (Elt Ideal))
    (x2 : (⟨S4096, .f32⟩ : BufTy).Contents (Elt Ideal))
    (x3 : (⟨S2x4096x128, .f32⟩ : BufTy).Contents (Elt Ideal)) (x4 : (⟨S4096x128, .f32⟩ : BufTy).Contents (Elt Ideal)) :
    val_main_v13 (F := Ideal) x0 x1 x2 x3 x4 = G x0 x1 x2 x3 x4 := by
  funext i
  rw [val_main_v13_apply, val_main_v10_apply, val_main_v12_apply, val_main_v11_apply, bias_idx]
  show (∑ k : Fin 4096, _) + x2 (ix1 (i 2)) = (∑ c : Fin 4096, term x0 x1 x3 x4 (i 0) (i 1) (i 2) c) + x2 (ix1 (i 2))
  exact congrArg (· + x2 (ix1 (i 2))) (Finset.sum_congr rfl fun k _ => factor_eq x0 x1 x3 x4 i k)

end Cert.ScaledGemm.Ref

end
-- ==== Proof.ScaleExpand.lean ====
/-
  A per-block scale spread over its block, read at an index.

  A scale table with one entry per (row, block) is turned into a full-width table by four layout steps: a trailing unit
  axis is added, ([R, 128] to [R, 128, 1]), that array is cast to its own shape, its unit axis is broadcast to the block
  length 32, and the two trailing axes are flattened to the 4096 columns. Row-major position is kept by every cast, so
  column `c` of the flattened table is block `c / 32`, lane `c % 32`, and the broadcast forgets the lane: the entry at
  (p, c) is the scale of row `p` for block `c / 32`.
-/
import proofs.«176947_j57784490000873_1_alg».proof.Proof.Spec
import Idealize.ShloMosaic.Lib.Pipeline.Value
import Idealize.ShloMosaic.Lib.ValueLayout

namespace Cert.ScaledGemm

open Idealize.ShloMosaic Idealize.ShloMosaic.ValueIdx

variable {α : Type}

/-- Adding a trailing unit axis: (p, g, u) reads the table at (p, g). -/
theorem cast_unitAxis_apply {R : ℕ} (s : (⟨2, ![R, 128]⟩ : Shape).Idx → α)
    (h : (⟨2, ![R, 128]⟩ : Shape).ShapeCasts ⟨3, ![R, 128, 1]⟩) (p : Fin R) (g : Fin 128) (u : Fin 1) :
    shapeCast ⟨3, ![R, 128, 1]⟩ s h (ix3 p g u) = s (ix2 p g) :=
  shapeCast_apply s h _ _ (by
    have hu : u.val = 0 := by omega
    rw [Shape.rowMajor_val_two, Shape.rowMajor_val_three]
    show p.val * 128 + g.val = (p.val * 128 + g.val) * 1 + u.val
    omega)

/-- Broadcasting the unit axis over a block's 32 lanes: (p, g, l) reads (p, g, 0). -/
theorem bcast_lanes_apply {R : ℕ} (v : (⟨3, ![R, 128, 1]⟩ : Shape).Idx → α)
    (h : (⟨3, ![R, 128, 1]⟩ : Shape).Broadcasts ⟨3, ![R, 128, 32]⟩) (p : Fin R) (g : Fin 128) (l : Fin 32) :
    broadcastTo ⟨3, ![R, 128, 32]⟩ v h (ix3 p g l) = v (ix3 p g (0 : Fin 1)) := by
  refine broadcastTo_apply v h (ix3 p g l) (ix3 p g (0 : Fin 1)) fun ax => ?_
  match ax with
  | ⟨0, _⟩ =>
    show p.val = if R = 1 then 0 else p.val
    split
    · have := p.isLt; omega
    · rfl
  | ⟨1, _⟩ =>
    show g.val = if (128 : ℕ) = 1 then 0 else g.val
    rw [if_neg (by decide)]
  | ⟨2, _⟩ =>
    show (0 : ℕ) = if (1 : ℕ) = 1 then 0 else l.val
    rw [if_pos rfl]

/-- Flattening (block, lane) to the column: column `c` reads block `c / 32`, lane `c % 32`. -/
theorem cast_flatten_apply {R : ℕ} (v : (⟨3, ![R, 128, 32]⟩ : Shape).Idx → α)
    (h : (⟨3, ![R, 128, 32]⟩ : Shape).ShapeCasts ⟨2, ![R, 4096]⟩) (p : Fin R) (c : Fin 4096) :
    shapeCast ⟨2, ![R, 4096]⟩ v h (ix2 p c) = v (ix3 p (scaleBlock c) (laneOf c)) :=
  shapeCast_apply v h _ _ (by
    have hc : c.val < 4096 := c.isLt
    rw [Shape.rowMajor_val_three, Shape.rowMajor_val_two]
    show (p.val * 128 + c.val / 32) * 32 + c.val % 32 = p.val * 4096 + c.val
    omega)

/-- The four steps together: the spread table at (p, c) is the scale of row `p` for the block of column `c`. -/
theorem expand_apply {R : ℕ} (s : (⟨2, ![R, 128]⟩ : Shape).Idx → α)
    (h1 : (⟨2, ![R, 128]⟩ : Shape).ShapeCasts ⟨3, ![R, 128, 1]⟩)
    (h2 : (⟨3, ![R, 128, 1]⟩ : Shape).ShapeCasts ⟨3, ![R, 128, 1]⟩)
    (h3 : (⟨3, ![R, 128, 1]⟩ : Shape).Broadcasts ⟨3, ![R, 128, 32]⟩)
    (h4 : (⟨3, ![R, 128, 32]⟩ : Shape).ShapeCasts ⟨2, ![R, 4096]⟩) (p : Fin R) (c : Fin 4096) :
    shapeCast ⟨2, ![R, 4096]⟩ (broadcastTo ⟨3, ![R, 128, 32]⟩ (shapeCast ⟨3, ![R, 128, 1]⟩ (shapeCast ⟨3, ![R, 128, 1]⟩ s h1) h2) h3) h4 (ix2 p c)
      = s (ix2 p (scaleBlock c)) := by
  rw [cast_flatten_apply, bcast_lanes_apply, shapeCast_self, cast_unitAxis_apply]

end Cert.ScaledGemm
-- ==== Proof.Payload.lean ====
/-
  The kernel body's stored value, read at an index of the output block.

  At one grid point the body holds a [256, 4096] block of activations with its [256, 128] scales, a [512, 4096] block
  of weights with its [512, 128] scales, and 512 bias entries. It spreads each scale over its block of 32 columns,
  rescales both operands, contracts the column axis of the two rescaled blocks into a zero accumulator, and adds the bias
  row to every row. At the extended reals a change of float format is the identity and the product into a zero
  accumulator is the plain sum over the 4096 columns, so entry (p, q) of the stored block is

      (∑ c, (x[p, c] · xs[p, c / 32]) · (w[q, c] · ws[q, c / 32])) + bias[q].
-/
import proofs.«176947_j57784490000873_1_alg».proof.Proof.Gen.KernelIdeal.Skeleton
import proofs.«176947_j57784490000873_1_alg».proof.Proof.ScaleExpand
import Idealize.ShloMosaic.PureOps.Ideal.Laws

noncomputable section

namespace Cert.ScaledGemm.Body

open Cert.KernelIdeal Cert.KernelIdeal.Gen Idealize.ShloMosaic Idealize.ShloMosaic.ValueIdx Cert.ScaledGemm

/-! ## The contraction's operand indices: both operands are contracted along their column axis -/

theorem lhs_axis0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_axis1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem rhs_axis0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_axis1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- The product into the zero accumulator at (p, q): row `p` of the left block against row `q` of the right block, summed
    over the 4096 columns. -/
theorem contract_apply (l : FVec Ideal S256x4096 .bf16) (r : FVec Ideal S512x4096 .bf16) (p : Fin 256) (q : Fin 512) :
    matmul dot_S256x4096_S512x4096_S256x512_1_1_0_0_n_n none l r (constant S256x512 .f32 0x00000000#32) (ix2 p q)
      = ∑ c : Fin 4096, l (ix2 p c) * r (ix2 q c) := by
  simp only [matmul]
  rw [Ideal.matmul_constant_zero_apply, ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p q) ((contrEquiv1 dot_S256x4096_S512x4096_S256x512_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S512x4096_S256x512_1_1_0_0_n_n.rhsIdx (ix2 p q) ((contrEquiv1 dot_S256x4096_S512x4096_S256x512_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The stored block at (u, p, q), from the five loaded blocks. -/
theorem pay_apply (x0 : Vec Ideal S1x256x4096 .f32) (x2 : Vec Ideal S512x4096 .f32) (x3 : Vec Ideal S1x256x128 .f32)
    (x5 : Vec Ideal S512x128 .f32) (x19 : Vec Ideal S1x512 .f32) (u : Fin 1) (p : Fin 256) (q : Fin 512) :
    k0_pay1 x0 x2 x3 x5 x19 (ix3 u p q)
      = (∑ c : Fin 4096, (x0 (ix3 (0 : Fin 1) p c) * x3 (ix3 (0 : Fin 1) p (scaleBlock c))) * (x2 (ix2 q c) * x5 (ix2 q (scaleBlock c))))
        + x19 (ix2 (0 : Fin 1) q) := by
  unfold k0_pay1
  rw [shapeCast_ab_1ab_apply, addf_apply, contract_apply, broadcastTo_1b_ab_apply, shapeCast_self x19]
  refine congrArg (· + x19 (ix2 (0 : Fin 1) q)) (Finset.sum_congr rfl fun c _ => ?_)
  rw [truncf_apply, truncf_apply, mulf_apply, mulf_apply, shapeCast_1ab_ab_apply, expand_apply, expand_apply, shapeCast_1ab_ab_apply]

/-- The same entry against whole arrays: if row `p` of the activation block and of its scales is row (b, r) of two arrays,
    row `q` of the weight block and of its scales is row `k` of two more, and the bias entry `q` is entry `k` of a
    fifth, then the stored block at (u, p, q) is the specified result at (b, r, k). -/
theorem pay_eq_entry (x0 : Vec Ideal S1x256x4096 .f32) (x2 : Vec Ideal S512x4096 .f32) (x3 : Vec Ideal S1x256x128 .f32)
    (x5 : Vec Ideal S512x128 .f32) (x19 : Vec Ideal S1x512 .f32)
    (X : (⟨3, ![2, 4096, 4096]⟩ : Shape).Idx → EReal) (W : (⟨2, ![4096, 4096]⟩ : Shape).Idx → EReal)
    (Bias : (⟨1, ![4096]⟩ : Shape).Idx → EReal)
    (XS : (⟨3, ![2, 4096, 128]⟩ : Shape).Idx → EReal) (WS : (⟨2, ![4096, 128]⟩ : Shape).Idx → EReal)
    (u : Fin 1) (p : Fin 256) (q : Fin 512) (b : Fin 2) (r k : Fin 4096)
    (h0 : ∀ c : Fin 4096, x0 (ix3 (0 : Fin 1) p c) = X (ix3 b r c))
    (h3 : ∀ g : Fin 128, x3 (ix3 (0 : Fin 1) p g) = XS (ix3 b r g))
    (h2 : ∀ c : Fin 4096, x2 (ix2 q c) = W (ix2 k c))
    (h5 : ∀ g : Fin 128, x5 (ix2 q g) = WS (ix2 k g))
    (h19 : x19 (ix2 (0 : Fin 1) q) = Bias (ix1 k)) :
    k0_pay1 x0 x2 x3 x5 x19 (ix3 u p q) = entry X W Bias XS WS b r k := by
  rw [pay_apply]
  unfold entry term
  simp only [h0, h3, h2, h5, h19]

end Cert.ScaledGemm.Body

end
-- ==== Proof.Blocks.lean ====
/-
  From the blocks to the whole array: after the kernel's run the result array is `G` of the five arguments.

  The grid has 8 · 2 · 16 points (channel tile, batch, row tile). At a point the output block is rows
  [256·i, 256·i + 256) of batch `b` and channels [512·k, 512·k + 512); the activation and activation-scale blocks are
  the same rows of the same batch (all columns, all scale blocks), the weight and weight-scale blocks are the same
  channels (all columns, all scale blocks), and the bias block is the same channels of the bias viewed as one row. So
  the entry the body stores at position `y` of the block is `G` at the array index `y` lands on. Every (batch, row
  tile, channel tile) is some point's, so the blocks cover the array.
-/
import proofs.«176947_j57784490000873_1_alg».proof.Proof.Gen.KernelIdeal.Value
import proofs.«176947_j57784490000873_1_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ScaledGemm.Kernel

open Cert.KernelIdeal Cert.KernelIdeal.Gen Cert.KernelIdeal.Value Idealize.ShloMosaic.ValueIdx Cert.ScaledGemm

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specified result of core `c`'s five argument arrays as launched. -/
abbrev result (c : Dev nD) : S2x4096x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The bias as the region finds it: the launched vector viewed as one row of 4096. -/
theorem V_bias (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- The printed index maps over the grid: every input block moves with the output block (same batch and row tile for the
    activations and their scales, same channel tile for the weights, their scales and the bias), and the output's block
    indices stay in their ranges. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 2) = win0_5.index t (2 : Fin 3) ∧ win0_1.index t (1 : Fin 2) = 0
    ∧ win0_2.index t (0 : Fin 2) = 0 ∧ win0_2.index t (1 : Fin 2) = win0_5.index t (2 : Fin 3)
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 2) = win0_5.index t (2 : Fin 3) ∧ win0_4.index t (1 : Fin 2) = 0
    ∧ win0_5.index t (0 : Fin 3) ≤ 1 ∧ win0_5.index t (1 : Fin 3) ≤ 15 ∧ win0_5.index t (2 : Fin 3) ≤ 7 :=
  (by decide +kernel : ∀ t : Fin grid0.N, _)

/-- Every (batch, row tile, channel tile) is some grid point's output block. -/
theorem idx_onto : ∀ (q0 : Fin 2) (q1 : Fin 16) (q2 : Fin 8), ∃ t : Fin cfg0.N, win0_5.index t = ![q0.val, q1.val, q2.val] :=
  (by decide +kernel : ∀ (q0 : Fin 2) (q1 : Fin 16) (q2 : Fin 8), ∃ t : Fin grid0.N, win0_5.index t = ![q0.val, q1.val, q2.val])

/-- What point `t` writes back is block `t` of the specified result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S1x256x4096) hz3, View.ld_unit_zero (S := S512x4096) hz2, View.ld_unit_zero (S := S1x512) hz2,
    View.ld_unit_zero (S := S1x256x128) hz3, View.ld_unit_zero (S := S512x128) hz2]
  obtain ⟨a00, a01, a02, w0, w1, b0, b1, s0, s1, s2, v0, v1, r0, r1, r2⟩ := idx_facts t
  funext j
  have hj0 : (j 0).val < 1 := (j 0).isLt
  have hj1 : (j 1).val < 256 := (j 1).isLt
  have hj2 : (j 2).val < 512 := (j 2).isLt
  have ej : j = ix3 (n0 := 1) (n1 := 256) (n2 := 512) (j 0) (j 1) (j 2) := eq_ix3 (n0 := 1) (n1 := 256) (n2 := 512) j
  show k0_pay1 (iblk m c 0 t) (iblk m c 1 t) (iblk m c 3 t) (iblk m c 4 t) (iblk m c 2 t) j
    = entry (m ((c : Thread nD τ).loc main_arg0)) (m ((c : Thread nD τ).loc main_arg1)) (m ((c : Thread nD τ).loc main_arg2))
        (m ((c : Thread nD τ).loc main_arg3)) (m ((c : Thread nD τ).loc main_arg4))
        ((((cfg0.win 5).blk t).view.emb j) 0) ((((cfg0.win 5).blk t).view.emb j) 1) ((((cfg0.win 5).blk t).view.emb j) 2)
  refine (congrArg (k0_pay1 (iblk m c 0 t) (iblk m c 1 t) (iblk m c 3 t) (iblk m c 4 t) (iblk m c 2 t)) ej).trans ?_
  refine Body.pay_eq_entry (iblk m c 0 t) (iblk m c 1 t) (iblk m c 3 t) (iblk m c 4 t) (iblk m c 2 t)
    (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1) (j 2)
    ((((cfg0.win 5).blk t).view.emb j) 0) ((((cfg0.win 5).blk t).view.emb j) 1) ((((cfg0.win 5).blk t).view.emb j) 2) ?_ ?_ ?_ ?_ ?_
  · intro cc
    show V m c main_arg0 (((cfg0.win 0).blk t).view.emb (ix3 (0 : Fin 1) (j 1) cc)) = _
    rw [V_main_arg0]
    refine congrArg _ (funext fun a => Fin.ext ?_)
    match a with
    | ⟨0, _⟩ => show win0_0.index t (0 : Fin 3) * 1 + 1 * 0 = win0_5.index t (0 : Fin 3) * 1 + 1 * (j 0).val; omega
    | ⟨1, _⟩ => show win0_0.index t (1 : Fin 3) * 256 + 1 * (j 1).val = win0_5.index t (1 : Fin 3) * 256 + 1 * (j 1).val; omega
    | ⟨2, _⟩ => show win0_0.index t (2 : Fin 3) * 4096 + 1 * cc.val = cc.val; omega
  · intro g
    show V m c main_arg3 (((cfg0.win 3).blk t).view.emb (ix3 (0 : Fin 1) (j 1) g)) = _
    rw [V_main_arg3]
    refine congrArg _ (funext fun a => Fin.ext ?_)
    match a with
    | ⟨0, _⟩ => show win0_3.index t (0 : Fin 3) * 1 + 1 * 0 = win0_5.index t (0 : Fin 3) * 1 + 1 * (j 0).val; omega
    | ⟨1, _⟩ => show win0_3.index t (1 : Fin 3) * 256 + 1 * (j 1).val = win0_5.index t (1 : Fin 3) * 256 + 1 * (j 1).val; omega
    | ⟨2, _⟩ => show win0_3.index t (2 : Fin 3) * 128 + 1 * g.val = g.val; omega
  · intro cc
    show V m c main_arg1 (((cfg0.win 1).blk t).view.emb (ix2 (j 2) cc)) = _
    rw [V_main_arg1]
    refine congrArg _ (funext fun a => Fin.ext ?_)
    match a with
    | ⟨0, _⟩ => show win0_1.index t (0 : Fin 2) * 512 + 1 * (j 2).val = win0_5.index t (2 : Fin 3) * 512 + 1 * (j 2).val; omega
    | ⟨1, _⟩ => show win0_1.index t (1 : Fin 2) * 4096 + 1 * cc.val = cc.val; omega
  · intro g
    show V m c main_arg4 (((cfg0.win 4).blk t).view.emb (ix2 (j 2) g)) = _
    rw [V_main_arg4]
    refine congrArg _ (funext fun a => Fin.ext ?_)
    match a with
    | ⟨0, _⟩ => show win0_4.index t (0 : Fin 2) * 512 + 1 * (j 2).val = win0_5.index t (2 : Fin 3) * 512 + 1 * (j 2).val; omega
    | ⟨1, _⟩ => show win0_4.index t (1 : Fin 2) * 128 + 1 * g.val = g.val; omega
  · show V m c main_v0 (((cfg0.win 2).blk t).view.emb (ix2 (0 : Fin 1) (j 2))) = _
    rw [V_bias]
    refine shapeCast_apply (s := S4096) (t := S1x4096) (m ((c : Thread nD τ).loc main_arg2)) shapeCasts_S4096_S1x4096
      (((cfg0.win 2).blk t).view.emb (ix2 (0 : Fin 1) (j 2))) (ix1 (n := 4096) ((((cfg0.win 5).blk t).view.emb j) 2)) ?_
    rw [Shape.rowMajor_val_one, Shape.rowMajor_val_two]
    show win0_5.index t (2 : Fin 3) * 512 + 1 * (j 2).val
      = (win0_2.index t (0 : Fin 2) * 1 + 1 * 0) * 4096 + (win0_2.index t (1 : Fin 2) * 512 + 1 * (j 2).val)
    omega

/-- An index of the array is in point `t`'s output block iff each coordinate is in the block's range on its axis. -/
theorem mem_blk (t : Fin cfg0.N) (i : S2x4096x4096.Idx) :
    i ∈ ((cfg0.win 5).blk t).view.set ↔ ∀ a : Fin 3, win0_5.index t a * S1x256x512.size a ≤ (i a).val ∧ (i a).val < win0_5.index t a * S1x256x512.size a + S1x256x512.size a := by
  show i ∈ ((View.whole main_v1).slice (win0_5.rect t)).set ↔ _
  rw [View.set_slice_whole, Rect.mem_set_unit]
  exact Iff.rfl

/-- Every index of the result array lies in the block of the point with its batch, its row tile and its channel tile. -/
theorem cover (i : S2x4096x4096.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩ ⟨(i 2).val / 512, by omega⟩
  have q0 : win0_5.index t (0 : Fin 3) = (i 0).val := congrFun ht 0
  have q1 : win0_5.index t (1 : Fin 3) = (i 1).val / 256 := congrFun ht 1
  have q2 : win0_5.index t (2 : Fin 3) = (i 2).val / 512 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 512 ≤ (i 2).val ∧ (i 2).val < win0_5.index t (2 : Fin 3) * 512 + 512; omega

/-- The result array after the run is the specified result. -/
theorem final (c : Dev nD) : (dats m 0 c).arrAt 5 cfg0.N = result m c :=
  (dats m 0 c).arrAt_eq_of_cover 5 (result m c) (fun t _ => flushed_eq m c t) cover

/-- The kernel's run, read: the result array at the specified result, the five arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.ScaledGemm.Kernel

end
-- ==== Proof.lean ====
/-
  A block-scaled linear layer: a tiled kernel against its whole-array reference, equal over the extended reals.

  Both programs compute, for batch b, row r and output channel k,

      out[b, r, k] = (∑ c, (x[b, r, c] · xs[b, r, c / 32]) · (w[k, c] · ws[k, c / 32])) + bias[k],

  the sum running over the 4096 columns, every 32 consecutive columns sharing one scale of the row (for x) and one of
  the channel (for w). The kernel computes it tile by tile: a grid point holds 256 rows of one batch and 512 channels,
  all columns resident, spreads the scales over their blocks, rescales, contracts into a zero accumulator and adds the
  bias row; its output tiles partition the result array. The reference reshapes the columns into (block, lane), rescales
  with the scale broadcast along the lane, flattens back and contracts whole arrays. At the extended reals the kernel's
  narrowing of the rescaled operands is the identity and both contractions are the same finite sum of the same products
  in the same grouping, so no algebraic law beyond reading the layouts is needed, and the inputs' finiteness is not used.

  Spec.lean fixes the formula `G`; RefIsSpec.lean reads the reference's stages to `G`; ScaleExpand.lean and Payload.lean
  read the kernel body's stored block at an index; Blocks.lean carries the blocks to the whole array. The two kernel
  frames and the runs being read are the generated modules'; the reference's frame is its run with the result dropped.
-/
import proofs.«176947_j57784490000873_1_alg».proof.Defs
import proofs.«176947_j57784490000873_1_alg».proof.Proof.Gen.Kernel
import proofs.«176947_j57784490000873_1_alg».proof.Proof.Gen.Kernel.Skeleton
import proofs.«176947_j57784490000873_1_alg».proof.Proof.Gen.Kernel.Launch
import proofs.«176947_j57784490000873_1_alg».proof.Proof.Gen.Kernel.Points
import proofs.«176947_j57784490000873_1_alg».proof.Proof.Gen.Kernel.Frame
import proofs.«176947_j57784490000873_1_alg».proof.Proof.Gen.KernelIdeal
import proofs.«176947_j57784490000873_1_alg».proof.Proof.Gen.KernelIdeal.Skeleton
import proofs.«176947_j57784490000873_1_alg».proof.Proof.Gen.KernelIdeal.Launch
import proofs.«176947_j57784490000873_1_alg».proof.Proof.Gen.KernelIdeal.Points
import proofs.«176947_j57784490000873_1_alg».proof.Proof.Gen.KernelIdeal.Frame
import proofs.«176947_j57784490000873_1_alg».proof.Proof.Gen.ReferenceIdeal
import proofs.«176947_j57784490000873_1_alg».proof.Proof.Gen.Pre_finite_inputs
import proofs.«176947_j57784490000873_1_alg».proof.Proof.Gen.KernelIdeal.Value
import proofs.«176947_j57784490000873_1_alg».proof.Proof.Gen.ReferenceIdeal.Run
import proofs.«176947_j57784490000873_1_alg».proof.Proof.Gen.ReferenceIdeal.Read
import proofs.«176947_j57784490000873_1_alg».proof.Proof.RefIsSpec
import proofs.«176947_j57784490000873_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of whole-array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's both end at `G` of
    those arguments: the kernel's by its blocks, the reference's by its stages. -/
theorem algebraic : Cert.algebraic_KernelIdeal_ReferenceIdeal := by
  intro m ρ m' ρ' _ hagree
  refine ⟨fun c => Cert.ScaledGemm.Kernel.result m c, Cert.ScaledGemm.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _ _ _ _).trans ((Cert.ScaledGemm.Ref.stage_eq_G _ _ _ _ _).trans ?_)
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
